-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 90
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_c_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.GcnChain.lean ====
/-
  The graph convolution both programs compute, as ONE term of the argument arrays, over the reference's shapes.

  Edges: the 800000 given (source, target) pairs followed by one self loop per node, 850000 in all; a negative node id
  is read from the end (id + 50000).  Each edge e carries the weight w(e) (1 on a self loop).  With
  deg(v) = sum of w(e) over the edges e whose target is v, and d(v) = deg(v)^(-1/2) where deg(v) > 0 and 0 elsewhere,
  the edge's coefficient is  n(e) = d(source e) * w(e) * d(target e).  One round of aggregation sends a node-feature
  matrix h to  A h (v, :) = sum over the edges e with target v of  h(source e, :) * n(e).  The network is
  A (max (A (x W1) + b1, 0) W2) + b2.
-/
import proofs.«168166_j5463198400661_1_alg».proof.ReferenceIdeal

noncomputable section

namespace Cert.GcnChain

open Idealize.ShloMosaic Idealize.SL.Sem Cert.ReferenceIdeal
open Cert.ReferenceIdeal.Facts₀ Cert.ReferenceIdeal.Facts

variable {F : FTy → Type} [FloatOps F] [Cert.ReferenceIdeal.Facts]

/-- The contents of a host buffer of shape `S` and element type `e`. -/
abbrev Arr (F : FTy → Type) (S : Shape) (e : EltTy) : Type := (⟨S, e⟩ : BufTy).Contents (Elt F)

/-- The edges' source nodes: row 0 of the edge list, then the self loops' 0, 1, …, 49999. -/
def srcIds (ei : Arr F S2x800000 .i32) : Arr F S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' target nodes: row 1 of the edge list, then the self loops' 0, 1, …, 49999. -/
def dstIds (ei : Arr F S2x800000 .i32) : Arr F S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The edges' weights: the given ones, then 1 for every self loop. -/
def weights (ew : Arr F S800000 .f32) : Arr F S850000 .f32 :=
  concatenate S850000 0 [⟨S800000, ew⟩, ⟨S50000, (broadcastInDim S50000 ![] bcast_S_S50000 (constant S_ .f32 0x3F800000#32))⟩] concatenates_S800000_S50000_S850000_d0

/-- Node ids as gather indices: a negative id counts from the end (id + 50000); one index per row. -/
def wrapped (ids : Arr F S850000 .i32) : Arr F S850000x1 .i32 :=
  broadcastInDim S850000x1 ![0] bcast_S850000_S850000x1_0 (select (cmpi .slt ids (broadcastInDim S850000 ![] bcast_S_S850000 (constantI S_ 32 0#32))) (addi ids (broadcastInDim S850000 ![] bcast_S_S850000 (constantI S_ 32 50000#32))) ids)

/-- deg(v): the sum of the weights of the edges whose target is v. -/
def degree (ei : Arr F S2x800000 .i32) (ew : Arr F S800000 .f32) : Arr F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstIds ei)) (weights ew)

/-- d(v) = deg(v)^(-1/2) (of the degree clamped below at a tiny positive constant) where deg(v) > 0, and 0 elsewhere. -/
def invSqrtDeg (ei : Arr F S2x800000 .i32) (ew : Arr F S800000 .f32) : Arr F S50000 .f32 :=
  select (cmpf .ogt (degree ei ew) (broadcastInDim S50000 ![] bcast_S_S50000 (constant S_ .f32 0x00000000#32))) (Host.rsqrt (maximumf (degree ei ew) (broadcastInDim S50000 ![] bcast_S_S50000 (constant S_ .f32 0x2B8CBCCC#32)))) (broadcastInDim S50000 ![] bcast_S_S50000 (id (constant S_ .f32 0x00000000#32)))

/-- n(e) = d(source e) * w(e) * d(target e). -/
def edgeNorm (ei : Arr F S2x800000 .i32) (ew : Arr F S800000 .f32) : Arr F S850000 .f32 :=
  mulf (mulf (Host.gather gather_S50000_S850000x1_S850000_n_0_n_n_0_1_1 (invSqrtDeg ei ew) (wrapped (srcIds ei))) (weights ew)) (Host.gather gather_S50000_S850000x1_S850000_n_0_n_n_0_1_1 (invSqrtDeg ei ew) (wrapped (dstIds ei)))

/-- One round of aggregation over given edge ends and coefficients: row v of the result is the sum, over the edges e
    with target v, of row (source e) of `h` scaled by the edge's coefficient. -/
def aggregateWith (h : Arr F S50000x128 .f32) (src dst : Arr F S850000 .i32) (nrm : Arr F S850000 .f32) : Arr F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (wrapped src)) (broadcastInDim S850000x128 ![0, 1] bcast_S850000x1_S850000x128_0_1 (broadcastInDim S850000x1 ![0] bcast_S850000_S850000x1_0 nrm)))

/-- One round of aggregation over the graph: the edges' ends and coefficients n(e) are those of the edge list. -/
def aggregate (h : Arr F S50000x128 .f32) (ei : Arr F S2x800000 .i32) (ew : Arr F S800000 .f32) : Arr F S50000x128 .f32 :=
  aggregateWith h (srcIds ei) (dstIds ei) (edgeNorm ei ew)

/-- A bias vector as one row of 128. -/
def biasRow (b : Arr F S128 .f32) : Arr F S1x128 .f32 :=
  broadcastInDim S1x128 ![1] bcast_S128_S1x128_1 b

/-- A matrix plus one row repeated on every one of its 50000 rows. -/
def addBias (X : Arr F S50000x128 .f32) (B : Arr F S1x128 .f32) : Arr F S50000x128 .f32 :=
  addf X (broadcastInDim S50000x128 ![0, 1] bcast_S1x128_S50000x128_0_1 B)

/-- The matrix of zeros the rectifier compares with. -/
def zeros : Arr F S50000x128 .f32 :=
  broadcastInDim S50000x128 ![] bcast_S_S50000x128 (constant S_ .f32 0x00000000#32)

/-- The dense product x · W. -/
def dense (x : Arr F S50000x128 .f32) (w : Arr F S128x128 .f32) : Arr F S50000x128 .f32 :=
  Host.dotGeneral dot_S50000x128_S128x128_S50000x128_1_0_0_1_n_n none x w

/-- The first layer: max (A (x W1) + b1, 0). -/
def hidden (x : Arr F S50000x128 .f32) (ei : Arr F S2x800000 .i32) (ew : Arr F S800000 .f32) (W1 : Arr F S128x128 .f32) (b1 : Arr F S128 .f32) : Arr F S50000x128 .f32 :=
  maximumf (addBias (aggregate (dense x W1) ei ew) (biasRow b1)) zeros

/-- The network: A (hidden · W2) + b2. -/
def gcn (x : Arr F S50000x128 .f32) (ei : Arr F S2x800000 .i32) (ew : Arr F S800000 .f32) (W1 : Arr F S128x128 .f32) (b1 : Arr F S128 .f32)
    (W2 : Arr F S128x128 .f32) (b2 : Arr F S128 .f32) : Arr F S50000x128 .f32 :=
  addBias (aggregate (dense (hidden x ei ew W1 b1) W2) ei ew) (biasRow b2)

end Cert.GcnChain

end
-- ==== Proof.RefTerm.lean ====
/-
  The reference's result, as its run states it, is the graph convolution `gcn` of the argument arrays: the run's
  composed term is that term written out (the edge coefficients, which the reference computes once per layer, are one
  term of the arguments both times).
-/
import proofs.«168166_j5463198400661_1_alg».proof.Proof.Gen.ReferenceIdeal.Run
import proofs.«168166_j5463198400661_1_alg».proof.Proof.GcnChain

noncomputable section

namespace Cert.GcnChain

open Idealize.ShloMosaic Idealize.ShloMosaic.TcCoe Idealize.SL.Sem Cert.ReferenceIdeal Cert.ReferenceIdeal.Gen

variable {F : FTy → Type} [FloatOps F]

set_option maxRecDepth 8192 in
set_option maxHeartbeats 2000000 in
theorem reference_eq (m : (ℓ : Loc nD τ sig) → Buf (Elt F) ℓ) (c : Dev nD) :
    Cert.ReferenceIdeal.Value.res_main_v93 m c
      = gcn (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v93 gcn hidden aggregate aggregateWith dense addBias biasRow zeros edgeNorm invSqrtDeg degree wrapped weights srcIds dstIds
  rfl

end Cert.GcnChain

end
-- ==== Proof.KernelHost.lean ====
/-
  The host operations around the kernel's regions, read as values of whatever the buffers hold when a stretch starts.

  Before the first region the program computes the edges' ends and their coefficients; between the regions it
  aggregates the node features a region has just produced, and reshapes a bias vector into one row.  A stretch of host
  operations is a fold over the buffers' contents, so each result is the operations' term of the contents the stretch
  started from, and a buffer no operation writes keeps its contents.
-/
import proofs.«168166_j5463198400661_1_alg».proof.Proof.Gen.KernelIdeal.Launch
import proofs.«168166_j5463198400661_1_alg».proof.Proof.Gen.ReferenceIdeal
import proofs.«168166_j5463198400661_1_alg».proof.Proof.GcnChain
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-- Running one list of operations after another is running their concatenation. -/
theorem after_append (l1 l2 : List (HloOp τ sig (Elt F))) (W : Valuation τ sig (Elt F)) :
    after (l1 ++ l2) W = after l2 (after l1 W) := by
  induction l1 generalizing W with
  | nil => rfl
  | cons op ops ih => simp only [List.cons_append, after_cons, ih]

/-- The operations before the first region, as one list. -/
abbrev prelude : List (HloOp τ sig (Elt F)) := hostOps0 ++ (hostOps0_1 ++ hostOps0_2)

theorem after_prelude (W : Valuation τ sig (Elt F)) :
    after hostOps0_2 (after hostOps0_1 (after hostOps0 W)) = after prelude W := by
  simp only [prelude, after_append]

/-- A buffer that no operation of a stretch writes keeps its contents: each operation's written buffer is another one. -/
macro "host_keeps" : tactic =>
  `(tactic| (refine StableHlo.after_of_forall_not_mem _ _ (List.forall_iff_forall_mem.mp ?_)
             simp only [prelude, hostOps0, hostOps0_1, hostOps0_2, hostOps1, hostOps3, List.cons_append, List.nil_append, List.flatten_cons, List.flatten_nil, List.append_nil,
               List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Before the first region: the edges -/

set_option maxHeartbeats 4000000 in
/-- The edges' source nodes. -/
theorem prelude_src (W : Valuation τ sig (Elt F)) :
    after prelude W (Proc.devRef .tc main_v3) = Cert.GcnChain.srcIds (W (Proc.devRef .tc main_arg1)) := by
  simp only [prelude, hostOps0, hostOps0_1, hostOps0_2, List.cons_append, List.nil_append]
  after_results_simp <;> rfl

set_option maxHeartbeats 4000000 in
/-- The edges' target nodes. -/
theorem prelude_dst (W : Valuation τ sig (Elt F)) :
    after prelude W (Proc.devRef .tc main_v6) = Cert.GcnChain.dstIds (W (Proc.devRef .tc main_arg1)) := by
  simp only [prelude, hostOps0, hostOps0_1, hostOps0_2, List.cons_append, List.nil_append]
  after_results_simp <;> rfl

set_option maxHeartbeats 4000000 in
/-- The edges' coefficients n(e) = d(source e) * w(e) * d(target e). -/
theorem prelude_norm (W : Valuation τ sig (Elt F)) :
    after prelude W (Proc.devRef .tc main_v33)
      = Cert.GcnChain.edgeNorm (W (Proc.devRef .tc main_arg1)) (W (Proc.devRef .tc main_arg2)) := by
  simp only [prelude, hostOps0, hostOps0_1, hostOps0_2, List.cons_append, List.nil_append]
  after_results_simp <;> rfl

theorem prelude_keeps_arg0 (W : Valuation τ sig (Elt F)) : after prelude W (Proc.devRef .tc main_arg0) = W (Proc.devRef .tc main_arg0) := by host_keeps
theorem prelude_keeps_arg3 (W : Valuation τ sig (Elt F)) : after prelude W (Proc.devRef .tc main_arg3) = W (Proc.devRef .tc main_arg3) := by host_keeps
theorem prelude_keeps_arg4 (W : Valuation τ sig (Elt F)) : after prelude W (Proc.devRef .tc main_arg4) = W (Proc.devRef .tc main_arg4) := by host_keeps
theorem prelude_keeps_arg5 (W : Valuation τ sig (Elt F)) : after prelude W (Proc.devRef .tc main_arg5) = W (Proc.devRef .tc main_arg5) := by host_keeps
theorem prelude_keeps_arg6 (W : Valuation τ sig (Elt F)) : after prelude W (Proc.devRef .tc main_arg6) = W (Proc.devRef .tc main_arg6) := by host_keeps

/-! ## A bias vector reshaped to one row -/

/-- Reshaping 128 numbers into one row of 128 is placing them along the row. -/
theorem reshape_row (b : Cert.GcnChain.Arr F Cert.ReferenceIdeal.S128 .f32) (h : S128.ShapeCasts S1x128) :
    shapeCast S1x128 b h = Cert.GcnChain.biasRow b := by
  funext i
  obtain ⟨u, q, rfl⟩ : ∃ (u : Fin 1) (q : Fin 128), i = ix2 u q := ⟨i 0, i 1, eq_ix2 i⟩
  rw [shapeCast_a_1a_apply]
  unfold Cert.GcnChain.biasRow
  exact (broadcastInDim_apply ![1] Cert.ReferenceIdeal.Facts₀.bcast_S128_S1x128_1 b (ix2 u q) (ix1 q) (fun a => by
    match a with
    | ⟨0, _⟩ => show q.val = if (128 : ℕ) = 1 then 0 else q.val; rw [if_neg (by decide)])).symm

/-! ## Between the first matrix product and the first bias pass -/

set_option maxHeartbeats 4000000 in
/-- The aggregation of the first product's rows. -/
theorem mid1_agg (W : Valuation τ sig (Elt F)) :
    after hostOps1 W (Proc.devRef .tc main_v47)
      = Cert.GcnChain.aggregateWith (W (Proc.devRef .tc main_v34)) (W (Proc.devRef .tc main_v3)) (W (Proc.devRef .tc main_v6)) (W (Proc.devRef .tc main_v33)) := by
  simp only [hostOps1]
  after_results_simp <;> rfl

set_option maxHeartbeats 4000000 in
/-- The first bias as one row. -/
theorem mid1_bias (W : Valuation τ sig (Elt F)) :
    after hostOps1 W (Proc.devRef .tc main_v48) = Cert.GcnChain.biasRow (W (Proc.devRef .tc main_arg4)) := by
  refine Eq.trans ?_ (reshape_row (W (Proc.devRef .tc main_arg4)) Facts₀.shapeCasts_S128_S1x128)
  simp only [hostOps1]
  after_results_simp <;> rfl

theorem mid1_keeps_v3 (W : Valuation τ sig (Elt F)) : after hostOps1 W (Proc.devRef .tc main_v3) = W (Proc.devRef .tc main_v3) := by host_keeps
theorem mid1_keeps_v6 (W : Valuation τ sig (Elt F)) : after hostOps1 W (Proc.devRef .tc main_v6) = W (Proc.devRef .tc main_v6) := by host_keeps
theorem mid1_keeps_v33 (W : Valuation τ sig (Elt F)) : after hostOps1 W (Proc.devRef .tc main_v33) = W (Proc.devRef .tc main_v33) := by host_keeps
theorem mid1_keeps_arg5 (W : Valuation τ sig (Elt F)) : after hostOps1 W (Proc.devRef .tc main_arg5) = W (Proc.devRef .tc main_arg5) := by host_keeps
theorem mid1_keeps_arg6 (W : Valuation τ sig (Elt F)) : after hostOps1 W (Proc.devRef .tc main_arg6) = W (Proc.devRef .tc main_arg6) := by host_keeps

/-! ## Between the second matrix product and the last bias pass -/

set_option maxHeartbeats 4000000 in
/-- The aggregation of the second product's rows. -/
theorem mid3_agg (W : Valuation τ sig (Elt F)) :
    after hostOps3 W (Proc.devRef .tc main_v63)
      = Cert.GcnChain.aggregateWith (W (Proc.devRef .tc main_v50)) (W (Proc.devRef .tc main_v3)) (W (Proc.devRef .tc main_v6)) (W (Proc.devRef .tc main_v33)) := by
  simp only [hostOps3]
  after_results_simp <;> rfl

set_option maxHeartbeats 4000000 in
/-- The second bias as one row. -/
theorem mid3_bias (W : Valuation τ sig (Elt F)) :
    after hostOps3 W (Proc.devRef .tc main_v64) = Cert.GcnChain.biasRow (W (Proc.devRef .tc main_arg6)) := by
  refine Eq.trans ?_ (reshape_row (W (Proc.devRef .tc main_arg6)) Facts₀.shapeCasts_S128_S1x128)
  simp only [hostOps3]
  after_results_simp <;> rfl

end Cert.KernelIdeal.HostValue

end
-- ==== Proof.Dense0.lean ====
/-
  The first dense product (region 0 of the program).  The pipeline walks the 50000 rows of its first operand in ten
  blocks of 5000 rows, keeps the whole 128 × 128 second operand beside each, and writes each block's product back to the
  same rows of the result.  Over the extended reals a change of float format is the identity and a product into a zero
  accumulator is the plain sum over the contracted axis, so entry (r, c) of what a point writes is the sum over k of
  X (r, k) · W (k, c): exactly the entry of the whole product X · W.  The ten blocks tile the result, so the array the
  region leaves is X · W of the arrays it found, whatever those are.
-/
import proofs.«168166_j5463198400661_1_alg».proof.Proof.Gen.KernelIdeal.Frame
import proofs.«168166_j5463198400661_1_alg».proof.Proof.Gen.ReferenceIdeal.Read
import proofs.«168166_j5463198400661_1_alg».proof.Proof.GcnChain
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product at an entry -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `i`, k) of a block of rows. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Entry (k, column of `i`) of the square operand. -/
abbrev colAt (i : S5000x128.Idx) (k : Fin 128) : S128x128.Idx := fun a => match a with
  | ⟨0, _⟩ => ⟨k.val, k.isLt⟩
  | ⟨1, _⟩ => ⟨(i 1).val, (i 1).isLt⟩

/-- What the body stores, entry by entry: the sum over k of row entry times column entry. -/
theorem pay_apply (x0 : FVec Ideal S5000x128 .f32) (x1 : FVec Ideal S128x128 .f32) (i : S5000x128.Idx) :
    k0_pay1 (F := Ideal) x0 x1 i = ∑ k : Fin 128, x0 (rowAt i k) * x1 (colAt i k) := by
  unfold k0_pay1
  try simp only [shapeCast_self]
  show FloatOps.matmul dot_S5000x128_S128x128_S5000x128_1_0_0_1_n_n none (truncf .bf16 x0 bitsLt_bf16_f32) (truncf .bf16 x1 bitsLt_bf16_f32) (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_0 _ _
    | ⟨1, _⟩ => exact (lhs_1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_0 _ _).trans hk
    | ⟨1, _⟩ => exact rhs_1 _ _)
  rw [truncf_apply, truncf_apply, el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the first operand and of the result move together, point t at
    block t; the second operand stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand as the region finds it: 50000 rows of 128. -/
abbrev rowsArr (c : Dev nD) : FVec Ideal S50000x128 .f32 := V c main_arg0
/-- The second operand as the region finds it: the 128 × 128 matrix. -/
abbrev squareArr (c : Dev nD) : FVec Ideal S128x128 .f32 := V c main_arg3

/-- The product X · W of the arrays the region finds. -/
abbrev product (c : Dev nD) : Cert.GcnChain.Arr Ideal Cert.ReferenceIdeal.S50000x128 .f32 :=
  Cert.GcnChain.dense (F := Ideal) (rowsArr V c) (squareArr V c)

/-- What point t writes back is block t of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay_apply (iblk0 V c 0 t) (iblk0 V c 1 t) j).trans ?_
  show _ = Cert.ReferenceIdeal.Read.val_main_v34 (F := Ideal) (rowsArr V c) (squareArr V c) (((cfg0.win 2).blk t).view.emb j)
  rw [Cert.ReferenceIdeal.Read.val_main_v34_apply]
  refine Finset.sum_congr rfl fun k _ => ?_
  have h0 : ((cfg0.win 0).blk t).view.emb (rowAt j k) = Cert.ReferenceIdeal.Read.lidx_main_v34 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt j k) = Cert.ReferenceIdeal.Read.ridx_main_v34 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show rowsArr V c (((cfg0.win 0).blk t).view.emb (rowAt j k)) * squareArr V c (((cfg0.win 1).blk t).view.emb (colAt j k)) = _
  rw [h0, h1]

/-- An index of the result is in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every entry of the result lies in the block of the point its row falls in. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves is the product of the arrays it found. -/
theorem arr_eq (c : Dev nD) : (dat0 V c).arrAt 2 cfg0.N = product V c :=
  (dat0 V c).arrAt_eq_of_cover 2 (product V c) (fun t _ => flushed_eq V c t) (cover)

end Cert.KernelIdeal.Dense0

end
-- ==== Proof.Dense2.lean ====
/-
  The second dense product (region 2 of the program).  The pipeline walks the 50000 rows of its first operand in ten
  blocks of 5000 rows, keeps the whole 128 × 128 second operand beside each, and writes each block's product back to the
  same rows of the result.  Over the extended reals a change of float format is the identity and a product into a zero
  accumulator is the plain sum over the contracted axis, so entry (r, c) of what a point writes is the sum over k of
  X (r, k) · W (k, c): exactly the entry of the whole product X · W.  The ten blocks tile the result, so the array the
  region leaves is X · W of the arrays it found, whatever those are.
-/
import proofs.«168166_j5463198400661_1_alg».proof.Proof.Gen.KernelIdeal.Frame
import proofs.«168166_j5463198400661_1_alg».proof.Proof.Gen.ReferenceIdeal.Read
import proofs.«168166_j5463198400661_1_alg».proof.Proof.GcnChain
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product at an entry -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `i`, k) of a block of rows. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Entry (k, column of `i`) of the square operand. -/
abbrev colAt (i : S5000x128.Idx) (k : Fin 128) : S128x128.Idx := fun a => match a with
  | ⟨0, _⟩ => ⟨k.val, k.isLt⟩
  | ⟨1, _⟩ => ⟨(i 1).val, (i 1).isLt⟩

/-- What the body stores, entry by entry: the sum over k of row entry times column entry. -/
theorem pay_apply (x0 : FVec Ideal S5000x128 .f32) (x1 : FVec Ideal S128x128 .f32) (i : S5000x128.Idx) :
    k2_pay1 (F := Ideal) x0 x1 i = ∑ k : Fin 128, x0 (rowAt i k) * x1 (colAt i k) := by
  unfold k2_pay1
  try simp only [shapeCast_self]
  show FloatOps.matmul dot_S5000x128_S128x128_S5000x128_1_0_0_1_n_n none (truncf .bf16 x0 bitsLt_bf16_f32) (truncf .bf16 x1 bitsLt_bf16_f32) (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_0 _ _
    | ⟨1, _⟩ => exact (lhs_1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_0 _ _).trans hk
    | ⟨1, _⟩ => exact rhs_1 _ _)
  rw [truncf_apply, truncf_apply, el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks of the first operand and of the result move together, point t at
    block t; the second operand stays at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first operand as the region finds it: 50000 rows of 128. -/
abbrev rowsArr (c : Dev nD) : FVec Ideal S50000x128 .f32 := V c main_v49
/-- The second operand as the region finds it: the 128 × 128 matrix. -/
abbrev squareArr (c : Dev nD) : FVec Ideal S128x128 .f32 := V c main_arg5

/-- The product X · W of the arrays the region finds. -/
abbrev product (c : Dev nD) : Cert.GcnChain.Arr Ideal Cert.ReferenceIdeal.S50000x128 .f32 :=
  Cert.GcnChain.dense (F := Ideal) (rowsArr V c) (squareArr V c)

/-- What point t writes back is block t of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine (pay_apply (iblk2 V c 0 t) (iblk2 V c 1 t) j).trans ?_
  show _ = Cert.ReferenceIdeal.Read.val_main_v34 (F := Ideal) (rowsArr V c) (squareArr V c) (((cfg2.win 2).blk t).view.emb j)
  rw [Cert.ReferenceIdeal.Read.val_main_v34_apply]
  refine Finset.sum_congr rfl fun k _ => ?_
  have h0 : ((cfg2.win 0).blk t).view.emb (rowAt j k) = Cert.ReferenceIdeal.Read.lidx_main_v34 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (colAt j k) = Cert.ReferenceIdeal.Read.ridx_main_v34 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  show rowsArr V c (((cfg2.win 0).blk t).view.emb (rowAt j k)) * squareArr V c (((cfg2.win 1).blk t).view.emb (colAt j k)) = _
  rw [h0, h1]

/-- An index of the result is in point t's block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Every entry of the result lies in the block of the point its row falls in. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the region leaves is the product of the arrays it found. -/
theorem arr_eq (c : Dev nD) : (dat2 V c).arrAt 2 cfg2.N = product V c :=
  (dat2 V c).arrAt_eq_of_cover 2 (product V c) (fun t _ => flushed_eq V c t) (cover)

end Cert.KernelIdeal.Dense2

end
-- ==== Proof.Bias1.lean ====
/-
  The first bias-and-rectify pass (region 1 of the program).  The pipeline walks the 50000 rows of its first operand in
  ten blocks of 5000 rows, keeps the one bias row beside each, and writes back, entry by entry, the larger of
  (entry + bias of its column) and zero to the same rows of the result.  The ten blocks tile the result, so the array
  the region leaves is max (X + the bias row repeated on every row, 0) of the arrays it found, whatever those are.
-/
import proofs.«168166_j5463198400661_1_alg».proof.Proof.Gen.KernelIdeal.Frame
import proofs.«168166_j5463198400661_1_alg».proof.Proof.Gen.ReferenceIdeal
import proofs.«168166_j5463198400661_1_alg».proof.Proof.GcnChain
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-! ## One entry of a block, and one entry of the whole array -/

/-- What the body stores at entry (p, q) of its block: the block's entry plus the bias row's entry of column q, or zero if that is larger. -/
theorem pay_apply (x0 : FVec F S5000x128 .f32) (x1 : FVec F S1x128 .f32) (p : Fin 5000) (q : Fin 128) :
    k1_pay1 (F := F) x0 x1 (ix2 p q) = FloatOps.maximumf (FloatOps.addf (x0 (ix2 p q)) (x1 (ix2 (0 : Fin 1) q))) (FloatOps.ofBits .f32 0x00000000#32) := by
  unfold k1_pay1
  simp only [shapeCast_self]
  show FloatOps.maximumf (FloatOps.addf (x0 (ix2 p q)) (broadcastTo S5000x128 x1 broadcasts_S1x128_S5000x128 (ix2 p q))) (FloatOps.ofBits .f32 0x00000000#32) = _
  rw [broadcastTo_1b_ab_apply]

/-- The same at any index of the block. -/
theorem pay_apply' (x0 : FVec F S5000x128 .f32) (x1 : FVec F S1x128 .f32) (j : S5000x128.Idx) :
    k1_pay1 (F := F) x0 x1 j = FloatOps.maximumf (FloatOps.addf (x0 j) (x1 (ix2 (0 : Fin 1) (j 1)))) (FloatOps.ofBits .f32 0x00000000#32) := by
  obtain ⟨p, q, rfl⟩ : ∃ (p : Fin 5000) (q : Fin 128), j = ix2 p q := ⟨j 0, j 1, eq_ix2 j⟩
  exact pay_apply x0 x1 p q

/-- The whole-array function: X plus the bias row on every row, rectified. -/
def target (X : Cert.GcnChain.Arr F Cert.ReferenceIdeal.S50000x128 .f32) (B : Cert.GcnChain.Arr F Cert.ReferenceIdeal.S1x128 .f32) :
    Cert.GcnChain.Arr F Cert.ReferenceIdeal.S50000x128 .f32 :=
  maximumf (addf X (broadcastInDim Cert.ReferenceIdeal.S50000x128 ![0, 1] Cert.ReferenceIdeal.Facts₀.bcast_S1x128_S50000x128_0_1 B)) Cert.GcnChain.zeros

/-- Its entry (r, q): X's entry plus the bias row's entry of column q, or zero if that is larger. -/
theorem target_apply (X : Cert.GcnChain.Arr F Cert.ReferenceIdeal.S50000x128 .f32) (B : Cert.GcnChain.Arr F Cert.ReferenceIdeal.S1x128 .f32)
    (i : Cert.ReferenceIdeal.S50000x128.Idx) :
    target X B i = FloatOps.maximumf (FloatOps.addf (X i) (B (ix2 (0 : Fin 1) (i 1)))) (FloatOps.ofBits .f32 0x00000000#32) := by
  unfold target Cert.GcnChain.zeros
  show FloatOps.maximumf (FloatOps.addf (X i) (broadcastInDim Cert.ReferenceIdeal.S50000x128 ![0, 1] Cert.ReferenceIdeal.Facts₀.bcast_S1x128_S50000x128_0_1 B i)) (FloatOps.ofBits .f32 0x00000000#32) = _
  rw [broadcastInDim_apply ![0, 1] Cert.ReferenceIdeal.Facts₀.bcast_S1x128_S50000x128_0_1 B i (ix2 (0 : Fin 1) (i 1)) (fun a => by
    match a with
    | ⟨0, _⟩ => rfl
    | ⟨1, _⟩ => show (i 1).val = if (128 : ℕ) = 1 then 0 else (i 1).val; rw [if_neg (by decide)])]

/-! ## From the blocks to the array -/

variable (V : (c : Dev nD) → (b : Ref sig .tc) → Buf (Elt F) ((c : Thread nD τ).loc b))

theorem hz : (![0, 0] : Fin 2 → Nat) = fun _ => 0 := funext fun a => by fin_cases a <;> rfl

/-- The index maps over the grid: the row blocks of the first operand and of the result move together, point t at
    block t; the bias row stays at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand as the region finds it: 50000 rows of 128. -/
abbrev rowsArr (c : Dev nD) : FVec F S50000x128 .f32 := V c main_v47
/-- The bias as the region finds it: one row of 128. -/
abbrev biasArr (c : Dev nD) : FVec F S1x128 .f32 := V c main_v48

/-- What the region computes of the arrays it finds. -/
abbrev result (c : Dev nD) : Cert.GcnChain.Arr F Cert.ReferenceIdeal.S50000x128 .f32 := target (rowsArr V c) (biasArr V c)

/-- What point t writes back is block t of that array. -/
theorem flushed_eq (c : Dev nD) (t : Fin cfg1.N) :
    (dat1 V c).flushed 2 t = ((cfg1.win 2).blk t).view.read (Elt F) (result V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  refine (pay_apply' (iblk1 V c 0 t) (iblk1 V c 1 t) j).trans ?_
  show _ = target (rowsArr V c) (biasArr V c) (((cfg1.win 2).blk t).view.emb j)
  rw [target_apply]
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show FloatOps.maximumf (FloatOps.addf (rowsArr V c (((cfg1.win 0).blk t).view.emb j)) (biasArr V c (((cfg1.win 1).blk t).view.emb (ix2 (0 : Fin 1) (j 1))))) (FloatOps.ofBits .f32 0x00000000#32) = _
  rw [h0, h1]
  rfl

/-- An index of the result is in point t's block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every entry of the result lies in the block of the point its row falls in. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the region leaves is that function of the arrays it found. -/
theorem arr_eq (c : Dev nD) : (dat1 V c).arrAt 2 cfg1.N = result V c :=
  (dat1 V c).arrAt_eq_of_cover 2 (result V c) (fun t _ => flushed_eq V c t) (cover)

end Cert.KernelIdeal.Bias1

end
-- ==== Proof.Bias3.lean ====
/-
  The closing bias pass (region 3 of the program).  The pipeline walks the 50000 rows of its first operand in ten blocks
  of 5000 rows, keeps the one bias row beside each, and writes back, entry by entry, entry + bias of its column to the
  same rows of the result.  The ten blocks tile the result, so the array the region leaves is X + the bias row repeated
  on every row, of the arrays it found, whatever those are.
-/
import proofs.«168166_j5463198400661_1_alg».proof.Proof.Gen.KernelIdeal.Frame
import proofs.«168166_j5463198400661_1_alg».proof.Proof.Gen.ReferenceIdeal
import proofs.«168166_j5463198400661_1_alg».proof.Proof.GcnChain
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-! ## One entry of a block, and one entry of the whole array -/

/-- What the body stores at entry (p, q) of its block: the block's entry plus the bias row's entry of column q. -/
theorem pay_apply (x0 : FVec F S5000x128 .f32) (x1 : FVec F S1x128 .f32) (p : Fin 5000) (q : Fin 128) :
    k3_pay1 (F := F) x0 x1 (ix2 p q) = FloatOps.addf (x0 (ix2 p q)) (x1 (ix2 (0 : Fin 1) q)) := by
  unfold k3_pay1
  simp only [shapeCast_self]
  show FloatOps.addf (x0 (ix2 p q)) (broadcastTo S5000x128 x1 broadcasts_S1x128_S5000x128 (ix2 p q)) = _
  rw [broadcastTo_1b_ab_apply]

/-- The same at any index of the block. -/
theorem pay_apply' (x0 : FVec F S5000x128 .f32) (x1 : FVec F S1x128 .f32) (j : S5000x128.Idx) :
    k3_pay1 (F := F) x0 x1 j = FloatOps.addf (x0 j) (x1 (ix2 (0 : Fin 1) (j 1))) := by
  obtain ⟨p, q, rfl⟩ : ∃ (p : Fin 5000) (q : Fin 128), j = ix2 p q := ⟨j 0, j 1, eq_ix2 j⟩
  exact pay_apply x0 x1 p q

/-- The whole-array function: X plus the bias row on every row. -/
def target (X : Cert.GcnChain.Arr F Cert.ReferenceIdeal.S50000x128 .f32) (B : Cert.GcnChain.Arr F Cert.ReferenceIdeal.S1x128 .f32) :
    Cert.GcnChain.Arr F Cert.ReferenceIdeal.S50000x128 .f32 :=
  addf X (broadcastInDim Cert.ReferenceIdeal.S50000x128 ![0, 1] Cert.ReferenceIdeal.Facts₀.bcast_S1x128_S50000x128_0_1 B)

/-- Its entry (r, q): X's entry plus the bias row's entry of column q. -/
theorem target_apply (X : Cert.GcnChain.Arr F Cert.ReferenceIdeal.S50000x128 .f32) (B : Cert.GcnChain.Arr F Cert.ReferenceIdeal.S1x128 .f32)
    (i : Cert.ReferenceIdeal.S50000x128.Idx) :
    target X B i = FloatOps.addf (X i) (B (ix2 (0 : Fin 1) (i 1))) := by
  unfold target
  show FloatOps.addf (X i) (broadcastInDim Cert.ReferenceIdeal.S50000x128 ![0, 1] Cert.ReferenceIdeal.Facts₀.bcast_S1x128_S50000x128_0_1 B i) = _
  rw [broadcastInDim_apply ![0, 1] Cert.ReferenceIdeal.Facts₀.bcast_S1x128_S50000x128_0_1 B i (ix2 (0 : Fin 1) (i 1)) (fun a => by
    match a with
    | ⟨0, _⟩ => rfl
    | ⟨1, _⟩ => show (i 1).val = if (128 : ℕ) = 1 then 0 else (i 1).val; rw [if_neg (by decide)])]

/-! ## From the blocks to the array -/

variable (V : (c : Dev nD) → (b : Ref sig .tc) → Buf (Elt F) ((c : Thread nD τ).loc b))

theorem hz : (![0, 0] : Fin 2 → Nat) = fun _ => 0 := funext fun a => by fin_cases a <;> rfl

/-- The index maps over the grid: the row blocks of the first operand and of the result move together, point t at
    block t; the bias row stays at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand as the region finds it: 50000 rows of 128. -/
abbrev rowsArr (c : Dev nD) : FVec F S50000x128 .f32 := V c main_v63
/-- The bias as the region finds it: one row of 128. -/
abbrev biasArr (c : Dev nD) : FVec F S1x128 .f32 := V c main_v64

/-- What the region computes of the arrays it finds. -/
abbrev result (c : Dev nD) : Cert.GcnChain.Arr F Cert.ReferenceIdeal.S50000x128 .f32 := target (rowsArr V c) (biasArr V c)

/-- What point t writes back is block t of that array. -/
theorem flushed_eq (c : Dev nD) (t : Fin cfg3.N) :
    (dat3 V c).flushed 2 t = ((cfg3.win 2).blk t).view.read (Elt F) (result V c) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  refine (pay_apply' (iblk3 V c 0 t) (iblk3 V c 1 t) j).trans ?_
  show _ = target (rowsArr V c) (biasArr V c) (((cfg3.win 2).blk t).view.emb j)
  rw [target_apply]
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show FloatOps.addf (rowsArr V c (((cfg3.win 0).blk t).view.emb j)) (biasArr V c (((cfg3.win 1).blk t).view.emb (ix2 (0 : Fin 1) (j 1)))) = _
  rw [h0, h1]
  rfl

/-- An index of the result is in point t's block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- Every entry of the result lies in the block of the point its row falls in. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array the region leaves is that function of the arrays it found. -/
theorem arr_eq (c : Dev nD) : (dat3 V c).arrAt 2 cfg3.N = result V c :=
  (dat3 V c).arrAt_eq_of_cover 2 (result V c) (fun t _ => flushed_eq V c t) (cover)

end Cert.KernelIdeal.Bias3

end
-- ==== Proof.KernelValue.lean ====
/-
  What the kernel's program leaves in its result buffer, at the exact instance: the graph convolution `gcn` of the
  argument arrays as launched.

  The program is nine items in a row: the host operations that compute the edges, the first dense product (a region),
  the host operations that aggregate its rows and reshape the first bias, the bias-and-rectify pass (a region), the
  second dense product (a region), the host operations that aggregate again and reshape the second bias, and the closing
  bias pass (a region).  At each boundary between two items the buffers the next item reads hold a known term of the
  arguments: the edges' ends and coefficients are computed once and no later item writes them; an argument is never
  written; a region leaves its function of the arrays it found (Dense0, Bias1, Dense2, Bias3); a host stretch its
  operations' term (HostValue).  Chaining these from the launch to the return gives the result.
-/
import proofs.«168166_j5463198400661_1_alg».proof.Proof.Gen.KernelIdeal.Frame
import proofs.«168166_j5463198400661_1_alg».proof.Proof.GcnChain
import proofs.«168166_j5463198400661_1_alg».proof.Proof.KernelHost
import proofs.«168166_j5463198400661_1_alg».proof.Proof.Dense0
import proofs.«168166_j5463198400661_1_alg».proof.Proof.Dense2
import proofs.«168166_j5463198400661_1_alg».proof.Proof.Bias1
import proofs.«168166_j5463198400661_1_alg».proof.Proof.Bias3

set_option maxRecDepth 16384

noncomputable section

namespace Cert.KernelIdeal.ResultValue

open Cert.KernelIdeal Cert.KernelIdeal.Gen Cert.KernelIdeal.HostValue
open Idealize.ShloMosaic Idealize.ShloMosaic.TcCoe Idealize.SL.Sem Idealize.ShloMosaic.StableHlo
open Cert.GcnChain

variable (m : (ℓ : Loc nD τ sig) → Buf (Elt Ideal) ℓ) (ρ : Dev nD → PrngReg)

/-! ## The arguments as launched -/

abbrev argX (c : Dev nD) : Arr Ideal Cert.ReferenceIdeal.S50000x128 .f32 := m ((c : Thread nD τ).loc main_arg0)
abbrev argEdges (c : Dev nD) : Arr Ideal Cert.ReferenceIdeal.S2x800000 .i32 := m ((c : Thread nD τ).loc main_arg1)
abbrev argWeights (c : Dev nD) : Arr Ideal Cert.ReferenceIdeal.S800000 .f32 := m ((c : Thread nD τ).loc main_arg2)
abbrev argW1 (c : Dev nD) : Arr Ideal Cert.ReferenceIdeal.S128x128 .f32 := m ((c : Thread nD τ).loc main_arg3)
abbrev argB1 (c : Dev nD) : Arr Ideal Cert.ReferenceIdeal.S128 .f32 := m ((c : Thread nD τ).loc main_arg4)
abbrev argW2 (c : Dev nD) : Arr Ideal Cert.ReferenceIdeal.S128x128 .f32 := m ((c : Thread nD τ).loc main_arg5)
abbrev argB2 (c : Dev nD) : Arr Ideal Cert.ReferenceIdeal.S128 .f32 := m ((c : Thread nD τ).loc main_arg6)

/-- The contents before the first region are the opening host operations' fold over the launch contents. -/
theorem W3_eq (c : Dev nD) : W3 m ρ c = after prelude (W0 m ρ c) := after_prelude (W0 m ρ c)

/-! ## The edges, at every boundary from the first region on -/

/-- The three edge buffers hold the edges' sources, targets and coefficients. -/
def EdgesAt (c : Dev nD) (W : Valuation τ sig (Elt Ideal)) : Prop :=
  W (Proc.devRef .tc main_v3) = srcIds (argEdges m c)
  ∧ W (Proc.devRef .tc main_v6) = dstIds (argEdges m c)
  ∧ W (Proc.devRef .tc main_v33) = edgeNorm (argEdges m c) (argWeights m c)

theorem edges3 (c : Dev nD) : EdgesAt m c (W3 m ρ c) := by
  unfold EdgesAt
  rw [W3_eq]
  exact ⟨prelude_src (W0 m ρ c), prelude_dst (W0 m ρ c), prelude_norm (W0 m ρ c)⟩

theorem edges4 (c : Dev nD) : EdgesAt m c (W4 m ρ c) :=
  ⟨(W4_of_ne m ρ c main_v3 (by decide)).trans (edges3 m ρ c).1,
   (W4_of_ne m ρ c main_v6 (by decide)).trans (edges3 m ρ c).2.1,
   (W4_of_ne m ρ c main_v33 (by decide)).trans (edges3 m ρ c).2.2⟩

theorem edges5 (c : Dev nD) : EdgesAt m c (W5 m ρ c) :=
  ⟨(mid1_keeps_v3 (W4 m ρ c)).trans (edges4 m ρ c).1,
   (mid1_keeps_v6 (W4 m ρ c)).trans (edges4 m ρ c).2.1,
   (mid1_keeps_v33 (W4 m ρ c)).trans (edges4 m ρ c).2.2⟩

theorem edges6 (c : Dev nD) : EdgesAt m c (W6 m ρ c) :=
  ⟨(W6_of_ne m ρ c main_v3 (by decide)).trans (edges5 m ρ c).1,
   (W6_of_ne m ρ c main_v6 (by decide)).trans (edges5 m ρ c).2.1,
   (W6_of_ne m ρ c main_v33 (by decide)).trans (edges5 m ρ c).2.2⟩

theorem edges7 (c : Dev nD) : EdgesAt m c (W7 m ρ c) :=
  ⟨(W7_of_ne m ρ c main_v3 (by decide)).trans (edges6 m ρ c).1,
   (W7_of_ne m ρ c main_v6 (by decide)).trans (edges6 m ρ c).2.1,
   (W7_of_ne m ρ c main_v33 (by decide)).trans (edges6 m ρ c).2.2⟩

/-! ## The arguments, where they are read -/

theorem x_at3 (c : Dev nD) : W3 m ρ c (Proc.devRef .tc main_arg0) = argX m c := by
  rw [W3_eq]; exact prelude_keeps_arg0 (W0 m ρ c)
theorem w1_at3 (c : Dev nD) : W3 m ρ c (Proc.devRef .tc main_arg3) = argW1 m c := by
  rw [W3_eq]; exact prelude_keeps_arg3 (W0 m ρ c)
theorem b1_at4 (c : Dev nD) : W4 m ρ c (Proc.devRef .tc main_arg4) = argB1 m c := by
  refine (W4_of_ne m ρ c main_arg4 (by decide)).trans ?_
  rw [W3_eq]; exact prelude_keeps_arg4 (W0 m ρ c)
theorem w2_at6 (c : Dev nD) : W6 m ρ c (Proc.devRef .tc main_arg5) = argW2 m c := by
  refine (W6_of_ne m ρ c main_arg5 (by decide)).trans ((mid1_keeps_arg5 (W4 m ρ c)).trans ((W4_of_ne m ρ c main_arg5 (by decide)).trans ?_))
  rw [W3_eq]; exact prelude_keeps_arg5 (W0 m ρ c)
theorem b2_at7 (c : Dev nD) : W7 m ρ c (Proc.devRef .tc main_arg6) = argB2 m c := by
  refine (W7_of_ne m ρ c main_arg6 (by decide)).trans ((W6_of_ne m ρ c main_arg6 (by decide)).trans
    ((mid1_keeps_arg6 (W4 m ρ c)).trans ((W4_of_ne m ρ c main_arg6 (by decide)).trans ?_)))
  rw [W3_eq]; exact prelude_keeps_arg6 (W0 m ρ c)

/-! ## The values, item by item -/

/-- After the first dense product: x · W1. -/
theorem product1 (c : Dev nD) : W4 m ρ c (Proc.devRef .tc main_v34) = dense (argX m c) (argW1 m c) := by
  refine (W4_arr m ρ c 2).trans ((Dense0.arr_eq (V3 m ρ) c).trans ?_)
  show dense (F := Ideal) (W3 m ρ c (Proc.devRef .tc main_arg0)) (W3 m ρ c (Proc.devRef .tc main_arg3)) = _
  rw [x_at3, w1_at3]

/-- After the first aggregation: A (x · W1). -/
theorem aggregated1 (c : Dev nD) :
    W5 m ρ c (Proc.devRef .tc main_v47) = aggregate (dense (argX m c) (argW1 m c)) (argEdges m c) (argWeights m c) := by
  refine (mid1_agg (W4 m ρ c)).trans ?_
  rw [product1, (edges4 m ρ c).1, (edges4 m ρ c).2.1, (edges4 m ρ c).2.2]
  rfl

/-- The first bias as a row. -/
theorem biasRow1 (c : Dev nD) : W5 m ρ c (Proc.devRef .tc main_v48) = biasRow (argB1 m c) := by
  refine (mid1_bias (W4 m ρ c)).trans ?_
  rw [b1_at4]

/-- After the bias-and-rectify pass: the first layer's output. -/
theorem hidden1 (c : Dev nD) :
    W6 m ρ c (Proc.devRef .tc main_v49) = hidden (argX m c) (argEdges m c) (argWeights m c) (argW1 m c) (argB1 m c) := by
  refine (W6_arr m ρ c 2).trans ((Bias1.arr_eq (V5 m ρ) c).trans ?_)
  show Bias1.target (F := Ideal) (W5 m ρ c (Proc.devRef .tc main_v47)) (W5 m ρ c (Proc.devRef .tc main_v48)) = _
  rw [aggregated1, biasRow1]
  rfl

/-- After the second dense product: hidden · W2. -/
theorem product2 (c : Dev nD) :
    W7 m ρ c (Proc.devRef .tc main_v50)
      = dense (hidden (argX m c) (argEdges m c) (argWeights m c) (argW1 m c) (argB1 m c)) (argW2 m c) := by
  refine (W7_arr m ρ c 2).trans ((Dense2.arr_eq (V6 m ρ) c).trans ?_)
  show dense (F := Ideal) (W6 m ρ c (Proc.devRef .tc main_v49)) (W6 m ρ c (Proc.devRef .tc main_arg5)) = _
  rw [hidden1, w2_at6]

/-- After the second aggregation: A (hidden · W2). -/
theorem aggregated2 (c : Dev nD) :
    W8 m ρ c (Proc.devRef .tc main_v63)
      = aggregate (dense (hidden (argX m c) (argEdges m c) (argWeights m c) (argW1 m c) (argB1 m c)) (argW2 m c)) (argEdges m c) (argWeights m c) := by
  refine (mid3_agg (W7 m ρ c)).trans ?_
  rw [product2, (edges7 m ρ c).1, (edges7 m ρ c).2.1, (edges7 m ρ c).2.2]
  rfl

/-- The second bias as a row. -/
theorem biasRow2 (c : Dev nD) : W8 m ρ c (Proc.devRef .tc main_v64) = biasRow (argB2 m c) := by
  refine (mid3_bias (W7 m ρ c)).trans ?_
  rw [b2_at7]

/-- THE RESULT: after the closing bias pass the result buffer holds the graph convolution of the arguments. -/
theorem result_eq (c : Dev nD) :
    W9 m ρ c (Proc.devRef .tc main_v65)
      = gcn (argX m c) (argEdges m c) (argWeights m c) (argW1 m c) (argB1 m c) (argW2 m c) (argB2 m c) := by
  refine (W9_arr m ρ c 2).trans ((Bias3.arr_eq (V8 m ρ) c).trans ?_)
  show Bias3.target (F := Ideal) (W8 m ρ c (Proc.devRef .tc main_v63)) (W8 m ρ c (Proc.devRef .tc main_v64)) = _
  rw [aggregated2, biasRow2]
  rfl

end Cert.KernelIdeal.ResultValue

end
-- ==== Proof.lean ====
/-
  A two-layer graph convolution, computed two ways, is one function of its arguments over the extended reals.

  Both programs take node features x (50000 × 128), an edge list (2 × 800000 node ids) with edge weights, and two
  128 × 128 weight matrices with their biases.  Both append one self loop of weight 1 per node, form the degree
  deg(v) = sum of the weights of the edges into v, d(v) = deg(v)^(-1/2) where deg(v) > 0 and 0 elsewhere, the edge
  coefficients n(e) = d(source e) · w(e) · d(target e), and with A h (v, :) = sum over the edges e into v of
  h (source e, :) · n(e) compute  A (max (A (x W1) + b1, 0) W2) + b2.

  The reference does all of it with host operations (and recomputes the coefficients for the second layer: the same
  term of the arguments).  The kernel's program does the two dense products and the two bias passes on the TensorCore,
  ten blocks of 5000 rows each, and the rest with the same host operations.  Over the extended reals a change of float
  format is the identity and a matrix product into a zero accumulator is the plain sum over the contracted axis, so a
  block of the kernel's product is the same block of the host's product, entry by entry; the bias passes are entrywise.
  No law of arithmetic beyond reading both sums at an index is used, so the inputs' finiteness is never opened.
-/
import proofs.«168166_j5463198400661_1_alg».proof.Defs
import proofs.«168166_j5463198400661_1_alg».proof.Proof.Gen.Kernel
import proofs.«168166_j5463198400661_1_alg».proof.Proof.Gen.Kernel.Frame
import proofs.«168166_j5463198400661_1_alg».proof.Proof.Gen.KernelIdeal
import proofs.«168166_j5463198400661_1_alg».proof.Proof.Gen.KernelIdeal.Frame
import proofs.«168166_j5463198400661_1_alg».proof.Proof.Gen.ReferenceIdeal
import proofs.«168166_j5463198400661_1_alg».proof.Proof.Gen.Pre_finite_inputs
import proofs.«168166_j5463198400661_1_alg».proof.Proof.Gen.ReferenceIdeal.Run
import proofs.«168166_j5463198400661_1_alg».proof.Proof.Gen.ReferenceIdeal.Read
import proofs.«168166_j5463198400661_1_alg».proof.Proof.GcnChain
import proofs.«168166_j5463198400661_1_alg».proof.Proof.RefTerm
import proofs.«168166_j5463198400661_1_alg».proof.Proof.KernelRun
import proofs.«168166_j5463198400661_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the printed one read over the extended reals: nothing was rewritten. -/
theorem preserves : Cert.preserves_Kernel_KernelIdeal := trivial

/-- From memories that agree on the arguments both programs end with the graph convolution of those arguments in their
    result buffers: the kernel's by chaining its nine items, the reference's because its run's term is that term. -/
theorem algebraic : Cert.algebraic_KernelIdeal_ReferenceIdeal := by
  intro m ρ m' ρ' _ hagree
  refine ⟨fun c => Cert.GcnChain.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result_eq m ρ c), (h c).2⟩)
      (Cert.KernelIdeal.ResultRun.run m ρ)
  · refine (θ_run Cert.ReferenceIdeal.defs _ _).mono (fun r h c => ⟨(h c).1.trans ?_, (h c).2⟩)
      (Cert.ReferenceIdeal.Value.run (F := Ideal) m' ρ')
    rw [Cert.GcnChain.reference_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
